-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048x2 : Shape := ⟨3, ![8192, 2048, 2]⟩
abbrev S64x1 : Shape := ⟨2, ![64, 1]⟩
abbrev S64 : Shape := ⟨1, ![64]⟩
abbrev S64x64 : Shape := ⟨2, ![64, 64]⟩
abbrev S_ : Shape := ⟨0, ![]⟩

class Facts : Prop where
  bcast_S_S8192x2048x2 : S_.BroadcastsInDim S8192x2048x2 (![] : Fin 0 → Fin S8192x2048x2.rank)
  reducesTo_S8192x2048x2_S_d0_1_2 : S8192x2048x2.ReducesTo [0, 1, 2] S_
  h_S_ : 0 < S_.numel
  bcast_S_S64x1 : S_.BroadcastsInDim S64x1 (![] : Fin 0 → Fin S64x1.rank)
  reducesTo_S64x1_S_d0_1 : S64x1.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64 .f32) (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S8192x2048x2 .f32) (main_arg1 : FVec F S64x1 .f32) (main_arg2 : FVec F S64 .f32) (main_arg3 : FVec F S64x64 .f32) (main_arg4 : FVec F S64 .f32) (main_arg5 : FVec F S64 .f32) (main_arg6 : FVec F S64x64 .f32) (main_arg7 : FVec F S64 .f32) : IVec S_ 1 :=
  let main_v0 : FVec F S8192x2048x2 .f32 := Host.absf main_arg0
  let main_cst : FVec F S_ .f32 := constant S_ .f32 0x7F800000#32
  let main_v1 : FVec F S8192x2048x2 .f32 := broadcastInDim S8192x2048x2 ![] bcast_S_S8192x2048x2 main_cst
  let main_v2 : IVec S8192x2048x2 1 := cmpf .olt main_v0 main_v1
  let main_c : IVec S_ 1 := constantI S_ 1 1#1
  let main_v3 : IVec S_ 1 := (fun x v => Host.reduce IntOp.andi x v reducesTo_S8192x2048x2_S_d0_1_2 h_S_) main_v2 main_c
  let main_v4 : FVec F S64x1 .f32 := Host.absf main_arg1
  let main_cst_0 : FVec F S_ .f32 := constant S_ .f32 0x7F800000#32
  let main_v5 : FVec F S64x1 .f32 := broadcastInDim S64x1 ![] bcast_S_S64x1 main_cst_0
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_v13 main_v16
-- ==== Kernel.lean ====
abbrev S8192x2048x2 : Shape := ⟨3, ![8192, 2048, 2]⟩
abbrev S64x1 : Shape := ⟨2, ![64, 1]⟩
abbrev S64 : Shape := ⟨1, ![64]⟩
abbrev S64x64 : Shape := ⟨2, ![64, 64]⟩
abbrev S8192x1x1 : Shape := ⟨3, ![8192, 1, 1]⟩
abbrev S8192x1 : Shape := ⟨2, ![8192, 1]⟩
abbrev S1x64 : Shape := ⟨2, ![1, 64]⟩
abbrev S8192x64 : Shape := ⟨2, ![8192, 64]⟩
abbrev S2048x1 : Shape := ⟨2, ![2048, 1]⟩
abbrev S2048x64 : Shape := ⟨2, ![2048, 64]⟩

abbrev nBuf : Space → Nat
  | .hbm => 19
  | .vmem => 12
  | .smem => 0
  | _ => 0

abbrev bufTy : (tb : Table) → Fin (tcTables nBuf tb) → BufTy
  | .hbm, ⟨0, _⟩ => ⟨S8192x2048x2, .f32⟩
  | .hbm, ⟨1, _⟩ => ⟨S64x1, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S8192x1x1, .f32⟩
  | .hbm, ⟨9, _⟩ => ⟨S8192x1, .f32⟩
  | .hbm, ⟨10, _⟩ => ⟨S8192x1x1, .f32⟩
  | .hbm, ⟨11, _⟩ => ⟨S8192x1, .f32⟩
  | .hbm, ⟨12, _⟩ => ⟨S1x64, .f32⟩
  | .hbm, ⟨13, _⟩ => ⟨S64x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S8192x64, .f32⟩
  | .local _ .vmem, ⟨0, _⟩ => ⟨S2048x1, .f32⟩
  | .local _ .vmem, ⟨1, _⟩ => ⟨S2048x1, .f32⟩
  | .local _ .vmem, ⟨2, _⟩ => ⟨S2048x1, .f32⟩
  | .local _ .vmem, ⟨3, _⟩ => ⟨S2048x1, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S2048x64, .f32⟩
  | .local _ .vmem, ⟨11, _⟩ => ⟨S2048x64, .f32⟩
  | _, _ => ⟨S8192x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S8192x2048x2_S8192x1x1_0_2047_0 : S8192x2048x2.Slices ![0, 2047, 0] S8192x1x1
  shapeCasts_S8192x1x1_S8192x1 : S8192x1x1.ShapeCasts S8192x1
  slices_S8192x2048x2_S8192x1x1_0_2047_1 : S8192x2048x2.Slices ![0, 2047, 1] S8192x1x1
  transposes_S64x1_S1x64_1_0 : S64x1.Transposes [1, 0] S1x64
  transposes_S64x64_S64x64_1_0 : S64x64.Transposes [1, 0] S64x64
  shapeCasts_S64_S1x64 : S64.ShapeCasts S1x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  broadcasts_S1x64_S2048x64 : S1x64.Broadcasts S2048x64
  broadcasts_S2048x1_S2048x64 : S2048x1.Broadcasts S2048x64
  inb_S2048x64_S2048x64_0_0 : ∀ a, (![0, 0] : Fin 2 → Nat) a + S2048x64.size a ≤ S2048x64.size a
  h_S2048x64 : 0 < S2048x64.numel
  dot_S2048x1_S1x64_S2048x64_1_0_0_1_n_n_wf : DotDims.WF S2048x1 S1x64 S2048x64 [1] [0] [0] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S8192x1.size a
  hwx0_0 : ∀ i : grid0.Coords, EltTy.bits .f32 = 32 ∨ (Rect.block (s := S8192x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S8192x1.size a
  hwx0_1 : ∀ i : grid0.Coords, EltTy.bits .f32 = 32 ∨ (Rect.block (s := S8192x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x64.size a ≤ S8192x64.size a
  hwx0_8 : ∀ i : grid0.Coords, EltTy.bits .f32 = 32 ∨ (Rect.block (s := S8192x64) S2048x64.size (cc0_transform_8 i) (hinb0_8 i)).WholeWords (EltTy.packing .f32)

variable [Facts₀]

def dot_S2048x1_S1x64_S2048x64_1_0_0_1_n_n : DotDims S2048x1 S1x64 S2048x64 where
  lhsContracting := [1]
  rhsContracting := [0]
  lhsNonContracting := [0]
  rhsNonContracting := [1]
  lhsBatch := []
  rhsBatch := []
  wf := dot_S2048x1_S1x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_v1) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S2048x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x2048x2 : Shape := ⟨3, ![8192, 2048, 2]⟩
abbrev S64x1 : Shape := ⟨2, ![64, 1]⟩
abbrev S64 : Shape := ⟨1, ![64]⟩
abbrev S64x64 : Shape := ⟨2, ![64, 64]⟩
abbrev S8192x1x1 : Shape := ⟨3, ![8192, 1, 1]⟩
abbrev S8192x1 : Shape := ⟨2, ![8192, 1]⟩
abbrev S8192 : Shape := ⟨1, ![8192]⟩
abbrev S1x64 : Shape := ⟨2, ![1, 64]⟩
abbrev S8192x64 : Shape := ⟨2, ![8192, 64]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048x2, .f32⟩
  | .hbm, ⟨1, _⟩ => ⟨S64x1, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S8192x1x1, .f32⟩
  | .hbm, ⟨9, _⟩ => ⟨S8192x1, .f32⟩
  | .hbm, ⟨10, _⟩ => ⟨S8192x1x1, .f32⟩
  | .hbm, ⟨11, _⟩ => ⟨S8192, .f32⟩
  | .hbm, ⟨12, _⟩ => ⟨S1x64, .f32⟩
  | .hbm, ⟨13, _⟩ => ⟨S8192x64, .f32⟩
  | .hbm, ⟨14, _⟩ => ⟨S1x64, .f32⟩
  | .hbm, ⟨15, _⟩ => ⟨S8192x64, .f32⟩
  | .hbm, ⟨16, _⟩ => ⟨S8192x64, .f32⟩
  | .hbm, ⟨17, _⟩ => ⟨S1x64, .f32⟩
  | .hbm, ⟨18, _⟩ => ⟨S8192x64, .f32⟩
  | .hbm, ⟨19, _⟩ => ⟨S8192x64, .f32⟩
  | .hbm, ⟨20, _⟩ => ⟨S8192x64, .f32⟩
  | .hbm, ⟨21, _⟩ => ⟨S1x64, .f32⟩
  | .hbm, ⟨22, _⟩ => ⟨S8192x64, .f32⟩
  | .hbm, ⟨23, _⟩ => ⟨S8192x64, .f32⟩
  | .hbm, ⟨24, _⟩ => ⟨S8192x1, .f32⟩
  | .hbm, ⟨25, _⟩ => ⟨S8192x64, .f32⟩
  | .hbm, ⟨26, _⟩ => ⟨S8192x64, .f32⟩
  | .hbm, ⟨27, _⟩ => ⟨S64x64, .f32⟩
  | .hbm, ⟨28, _⟩ => ⟨S8192x64, .f32⟩
  | .hbm, ⟨29, _⟩ => ⟨S1x64, .f32⟩
  | .hbm, ⟨30, _⟩ => ⟨S8192x64, .f32⟩
  | .hbm, ⟨31, _⟩ => ⟨S8192x64, .f32⟩
  | .hbm, ⟨32, _⟩ => ⟨S8192x64, .f32⟩
  | _, _ => ⟨S8192x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  slices_S8192x2048x2_S8192x1x1_0_2047_0 : S8192x2048x2.Slices ![0, 2047, 0] S8192x1x1
  shapeCasts_S8192x1x1_S8192x1 : S8192x1x1.ShapeCasts S8192x1
  slices_S8192x2048x2_S8192x1x1_0_2047_1 : S8192x2048x2.Slices ![0, 2047, 1] S8192x1x1
  shapeCasts_S8192x1x1_S8192 : S8192x1x1.ShapeCasts S8192
  transposes_S64x1_S1x64_1_0 : S64x1.Transposes [1, 0] S1x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  transposes_S64x64_S64x64_1_0 : S64x64.Transposes [1, 0] S64x64
  dot_S8192x1_S1x64_S8192x64_1_0_0_1_n_n_wf : DotDims.WF S8192x1 S1x64 S8192x64 [1] [0] [0] [1] [] []
  dot_S8192x64_S64x64_S8192x64_1_0_0_1_n_n_wf : DotDims.WF S8192x64 S64x64 S8192x64 [1] [0] [0] [1] [] []

variable [Facts₀]

def dot_S8192x1_S1x64_S8192x64_1_0_0_1_n_n : DotDims S8192x1 S1x64 S8192x64 where
  lhsContracting := [1]
  rhsContracting := [0]
  lhsNonContracting := [0]
  rhsNonContracting := [1]
  lhsBatch := []
  rhsBatch := []
  wf := dot_S8192x1_S1x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

class Facts : Prop extends Facts₀ where

variable [Facts]
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.Payload.lean ====
/-
  The kernel body's one stored value, read at an element (p, q) of its [2048, 64] block, at the ideal values.

  The body forms x · wᵀ as a product with one contraction index, adds the two bias rows, takes tanh, divides by the row
  of time constants, scales row p by δ(p), multiplies by the [64, 64] matrix it was handed, adds the bias row and takes
  tanh. Changes of float format are the identity on extended reals, and a product into the zero accumulator is the plain
  sum over the contraction index; a sum over one index is its one term.
-/
import proofs.«116303_j71906342469697_1_alg».proof.Proof.Gen.KernelIdeal.Skeleton
import proofs.«116303_j71906342469697_1_alg».proof.Proof.LibOuterDot
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- A column [a, 1] broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The state the body forms before the read-out product, at (p, k): δ(p) · ( tanh(x(p) · wᵀ(0, k) + b(k) + b'(k)) / τ(k) ). -/
theorem state_apply (x δ : FVec Ideal S2048x1 .f32) (wT b b' τ : FVec Ideal S1x64 .f32) (p : Fin 2048) (k : Fin 64) :
    mulf (broadcastTo S2048x64 δ broadcasts_S2048x1_S2048x64)
        (divf (tanh (addf (addf (matmul dot_S2048x1_S1x64_S2048x64_1_0_0_1_n_n none
              (truncf .bf16 x bitsLt_bf16_f32) (truncf .bf16 wT bitsLt_bf16_f32) (constant S2048x64 .f32 0x00000000#32))
            (broadcastTo S2048x64 b broadcasts_S1x64_S2048x64)) (broadcastTo S2048x64 b' broadcasts_S1x64_S2048x64)))
          (broadcastTo S2048x64 τ broadcasts_S1x64_S2048x64)) (ix2 p k)
      = δ (ix2 p (0 : Fin 1))
          * Ideal.div (Ideal.tanh (x (ix2 p (0 : Fin 1)) * wT (ix2 (0 : Fin 1) k) + b (ix2 (0 : Fin 1) k) + b' (ix2 (0 : Fin 1) k)))
              (τ (ix2 (0 : Fin 1) k)) := by
  show broadcastTo S2048x64 δ broadcasts_S2048x1_S2048x64 (ix2 p k)
      * Ideal.div (Ideal.tanh (matmul dot_S2048x1_S1x64_S2048x64_1_0_0_1_n_n none
              (truncf .bf16 x bitsLt_bf16_f32) (truncf .bf16 wT bitsLt_bf16_f32) (constant S2048x64 .f32 0x00000000#32) (ix2 p k)
            + broadcastTo S2048x64 b broadcasts_S1x64_S2048x64 (ix2 p k) + broadcastTo S2048x64 b' broadcasts_S1x64_S2048x64 (ix2 p k)))
          (broadcastTo S2048x64 τ broadcasts_S1x64_S2048x64 (ix2 p k)) = _
  rw [Cert.LibOuterDot.matmul_zero_ix2 dot_S2048x1_S1x64_S2048x64_1_0_0_1_n_n rfl rfl rfl rfl rfl rfl rfl rfl,
    Fin.sum_univ_one, broadcastTo_a1_ab_apply, broadcastTo_1b_ab_apply, broadcastTo_1b_ab_apply, broadcastTo_1b_ab_apply]
  rfl

/-- The stored value at (p, q): tanh( Σ_k state(p, k) · Wᵀ(k, q) + β(q) ). -/
theorem pay_apply (x δ : FVec Ideal S2048x1 .f32) (wT b b' τ : FVec Ideal S1x64 .f32) (WT : FVec Ideal S64x64 .f32)
    (β : FVec Ideal S1x64 .f32) (p : Fin 2048) (q : Fin 64) :
    k0_pay1 (F := Ideal) x δ wT b b' τ WT β (ix2 p q)
      = Ideal.tanh ((∑ k : Fin 64, (δ (ix2 p (0 : Fin 1))
            * Ideal.div (Ideal.tanh (x (ix2 p (0 : Fin 1)) * wT (ix2 (0 : Fin 1) k) + b (ix2 (0 : Fin 1) k) + b' (ix2 (0 : Fin 1) k)))
                (τ (ix2 (0 : Fin 1) k))) * WT (ix2 k q)) + β (ix2 (0 : Fin 1) q)) := by
  unfold k0_pay1
  simp only [shapeCast_self]
  show Ideal.tanh (matmul dot_S2048x64_S64x64_S2048x64_1_0_0_1_n_n none
        (truncf .bf16 (mulf (broadcastTo S2048x64 δ broadcasts_S2048x1_S2048x64)
          (divf (tanh (addf (addf (matmul dot_S2048x1_S1x64_S2048x64_1_0_0_1_n_n none
              (truncf .bf16 x bitsLt_bf16_f32) (truncf .bf16 wT bitsLt_bf16_f32) (constant S2048x64 .f32 0x00000000#32))
            (broadcastTo S2048x64 b broadcasts_S1x64_S2048x64)) (broadcastTo S2048x64 b' broadcasts_S1x64_S2048x64)))
          (broadcastTo S2048x64 τ broadcasts_S1x64_S2048x64))) bitsLt_bf16_f32)
        (truncf .bf16 WT bitsLt_bf16_f32) (constant S2048x64 .f32 0x00000000#32) (ix2 p q)
      + broadcastTo S2048x64 β broadcasts_S1x64_S2048x64 (ix2 p q)) = _
  rw [Cert.LibOuterDot.matmul_zero_ix2 dot_S2048x64_S64x64_S2048x64_1_0_0_1_n_n rfl rfl rfl rfl rfl rfl rfl rfl,
    broadcastTo_1b_ab_apply]
  refine congrArg (fun z => Ideal.tanh (z + β (ix2 (0 : Fin 1) q))) (Finset.sum_congr rfl fun k _ => ?_)
  exact congrArg (· * WT (ix2 k q)) (state_apply x δ wT b b' τ p k)

end Cert.KernelIdeal.Payload

end
-- ==== Proof.Glue.lean ====
/-
  What the region finds in the arrays its windows stage, in terms of the arguments.

  Before the region the program cuts the last step off the sequence, channel 0 as the drive column and channel 1 as the
  step-width column, both [8192, 1]; transposes the input weights to [1, 64] and the read-out weights to [64, 64]; and
  lays each of the four vectors out as a row [1, 64]. Read at an index each of these is the argument at one index.
-/
import proofs.«116303_j71906342469697_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Glue

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

/-! ## A column cut off the last step of the sequence -/

/-- Channel ch of step 2047, cut out as [8192, 1, 1] and cast to a column [8192, 1], reads at (s, 0) the sequence at
    (s, 2047, ch). -/
theorem last_step_col {α : Type} (u : S8192x2048x2.Idx → α) (ch : Fin 2)
    (hs : S8192x2048x2.Slices ![0, 2047, ch.val] S8192x1x1) (s : Fin 8192) :
    shapeCast S8192x1 (extractStridedSlice S8192x1x1 ![0, 2047, ch.val] u hs) shapeCasts_S8192x1x1_S8192x1 (ix2 s (0 : Fin 1))
      = u (ix3 s (2047 : Fin 2048) ch) := by
  refine (shapeCast_apply _ shapeCasts_S8192x1x1_S8192x1 (ix2 s (0 : Fin 1)) (ix3 s (0 : Fin 1) (0 : Fin 1)) ?_).trans ?_
  · rw [Shape.rowMajor_val_three, Shape.rowMajor_val_two]
    show (s.val * 1 + 0) * 1 + 0 = s.val * 1 + 0
    omega
  · refine extractStridedSlice_apply _ u hs _ _ fun a => ?_
    match a with
    | ⟨0, _⟩ => show s.val = 0 + s.val; omega
    | ⟨1, _⟩ => rfl
    | ⟨2, _⟩ => show ch.val = ch.val + 0; omega

/-! ## The eight staged arrays -/

/-- The drive column is channel 0 of the last step. -/
theorem drive_eq (c : Dev nD) : (V m c main_v1 : S8192x1.Idx → Elt F .f32)
    = shapeCast S8192x1 (extractStridedSlice S8192x1x1 ![0, 2047, 0] (m ((c : Thread nD τ).loc main_arg0))
        slices_S8192x2048x2_S8192x1x1_0_2047_0) shapeCasts_S8192x1x1_S8192x1 := by
  dsimp only [V, hostOps0]; after_results <;> rfl

/-- The step-width column is channel 1 of the last step. -/
theorem width_eq (c : Dev nD) : (V m c main_v3 : S8192x1.Idx → Elt F .f32)
    = shapeCast S8192x1 (extractStridedSlice S8192x1x1 ![0, 2047, 1] (m ((c : Thread nD τ).loc main_arg0))
        slices_S8192x2048x2_S8192x1x1_0_2047_1) shapeCasts_S8192x1x1_S8192x1 := by
  dsimp only [V, hostOps0]; after_results <;> rfl

/-- The input weights, transposed. -/
theorem inw_eq (c : Dev nD) : (V m c main_v4 : S1x64.Idx → Elt F .f32)
    = transpose S1x64 [1, 0] (m ((c : Thread nD τ).loc main_arg1)) transposes_S64x1_S1x64_1_0 := by
  dsimp only [V, hostOps0]; after_results <;> rfl

/-- The read-out weights, transposed. -/
theorem outw_eq (c : Dev nD) : (V m c main_v5 : S64x64.Idx → Elt F .f32)
    = transpose S64x64 [1, 0] (m ((c : Thread nD τ).loc main_arg6)) transposes_S64x64_S64x64_1_0 := by
  dsimp only [V, hostOps0]; after_results <;> rfl

/-- The first bias as a row. -/
theorem bias_eq (c : Dev nD) : (V m c main_v6 : S1x64.Idx → Elt F .f32)
    = shapeCast S1x64 (m ((c : Thread nD τ).loc main_arg2)) shapeCasts_S64_S1x64 := by
  dsimp only [V, hostOps0]; after_results <;> rfl

/-- The second bias as a row. -/
theorem bias'_eq (c : Dev nD) : (V m c main_v7 : S1x64.Idx → Elt F .f32)
    = shapeCast S1x64 (m ((c : Thread nD τ).loc main_arg4)) shapeCasts_S64_S1x64 := by
  dsimp only [V, hostOps0]; after_results <;> rfl

/-- The time constants as a row. -/
theorem tau_eq (c : Dev nD) : (V m c main_v8 : S1x64.Idx → Elt F .f32)
    = shapeCast S1x64 (m ((c : Thread nD τ).loc main_arg5)) shapeCasts_S64_S1x64 := by
  dsimp only [V, hostOps0]; after_results <;> rfl

/-- The read-out bias as a row. -/
theorem beta_eq (c : Dev nD) : (V m c main_v9 : S1x64.Idx → Elt F .f32)
    = shapeCast S1x64 (m ((c : Thread nD τ).loc main_arg7)) shapeCasts_S64_S1x64 := by
  dsimp only [V, hostOps0]; after_results <;> rfl

/-! ## Each at an index -/

theorem drive_apply (c : Dev nD) (s : Fin 8192) :
    (V m c main_v1 : S8192x1.Idx → Elt F .f32) (ix2 s (0 : Fin 1))
      = (m ((c : Thread nD τ).loc main_arg0) : S8192x2048x2.Idx → Elt F .f32) (ix3 s (2047 : Fin 2048) (0 : Fin 2)) := by
  rw [drive_eq]
  exact last_step_col _ (0 : Fin 2) slices_S8192x2048x2_S8192x1x1_0_2047_0 s

theorem width_apply (c : Dev nD) (s : Fin 8192) :
    (V m c main_v3 : S8192x1.Idx → Elt F .f32) (ix2 s (0 : Fin 1))
      = (m ((c : Thread nD τ).loc main_arg0) : S8192x2048x2.Idx → Elt F .f32) (ix3 s (2047 : Fin 2048) (1 : Fin 2)) := by
  rw [width_eq]
  exact last_step_col _ (1 : Fin 2) slices_S8192x2048x2_S8192x1x1_0_2047_1 s

theorem inw_apply (c : Dev nD) (k : Fin 64) :
    (V m c main_v4 : S1x64.Idx → Elt F .f32) (ix2 (0 : Fin 1) k)
      = (m ((c : Thread nD τ).loc main_arg1) : S64x1.Idx → Elt F .f32) (ix2 k (0 : Fin 1)) := by
  rw [inw_eq]
  exact transpose_ix2_apply _ transposes_S64x1_S1x64_1_0 (0 : Fin 1) k

theorem outw_apply (c : Dev nD) (k l : Fin 64) :
    (V m c main_v5 : S64x64.Idx → Elt F .f32) (ix2 k l)
      = (m ((c : Thread nD τ).loc main_arg6) : S64x64.Idx → Elt F .f32) (ix2 l k) := by
  rw [outw_eq]
  exact transpose_ix2_apply _ transposes_S64x64_S64x64_1_0 k l

theorem bias_apply (c : Dev nD) (k : Fin 64) :
    (V m c main_v6 : S1x64.Idx → Elt F .f32) (ix2 (0 : Fin 1) k)
      = (m ((c : Thread nD τ).loc main_arg2) : S64.Idx → Elt F .f32) (ix1 k) := by
  rw [bias_eq]
  exact shapeCast_a_1a_apply _ shapeCasts_S64_S1x64 (0 : Fin 1) k

theorem bias'_apply (c : Dev nD) (k : Fin 64) :
    (V m c main_v7 : S1x64.Idx → Elt F .f32) (ix2 (0 : Fin 1) k)
      = (m ((c : Thread nD τ).loc main_arg4) : S64.Idx → Elt F .f32) (ix1 k) := by
  rw [bias'_eq]
  exact shapeCast_a_1a_apply _ shapeCasts_S64_S1x64 (0 : Fin 1) k

theorem tau_apply (c : Dev nD) (k : Fin 64) :
    (V m c main_v8 : S1x64.Idx → Elt F .f32) (ix2 (0 : Fin 1) k)
      = (m ((c : Thread nD τ).loc main_arg5) : S64.Idx → Elt F .f32) (ix1 k) := by
  rw [tau_eq]
  exact shapeCast_a_1a_apply _ shapeCasts_S64_S1x64 (0 : Fin 1) k

theorem beta_apply (c : Dev nD) (l : Fin 64) :
    (V m c main_v9 : S1x64.Idx → Elt F .f32) (ix2 (0 : Fin 1) l)
      = (m ((c : Thread nD τ).loc main_arg7) : S64.Idx → Elt F .f32) (ix1 l) := by
  rw [beta_eq]
  exact shapeCast_a_1a_apply _ shapeCasts_S64_S1x64 (0 : Fin 1) l

end Cert.KernelIdeal.Glue

end
-- ==== Proof.Spec.lean ====
/-
  The function both programs compute, index by index over the extended reals.

  Of a sequence u : [8192, 2048, 2] only the last step, t = 2047, is read: its channel 0 is the drive x(s) and its
  channel 1 the step width δ(s) of row s. With input weights w : [64, 1], two biases b, b' : [64], time constants
  τ : [64], read-out weights W : [64, 64] and a read-out bias β : [64],

      h(s, k) = δ(s) · ( tanh( x(s) · w(k, 0) + b(k) + b'(k) ) / τ(k) )          the state after one step from zero,
      y(s, l) = tanh( Σ_{k < 64} h(s, k) · W(l, k) + β(l) )                      its read-out.

  The quotient is the extended reals' total division and tanh their tanh (±1 at ±∞); the sums associate to the left,
  as both programs add them.
-/
import Idealize.ShloMosaic.Lib.ValueIdx

noncomputable section

open scoped BigOperators

namespace Cert.LiquidCell

open Idealize.ShloMosaic Idealize.ShloMosaic.ValueIdx

/-- The state of unit k on row s after one step from the zero state: the step width times the update
    tanh(x · w + b + b') / τ. -/
def hidden (u : (⟨3, ![8192, 2048, 2]⟩ : Shape).Idx → EReal) (w : (⟨2, ![64, 1]⟩ : Shape).Idx → EReal)
    (b b' τ : (⟨1, ![64]⟩ : Shape).Idx → EReal) (s : Fin 8192) (k : Fin 64) : EReal :=
  u (ix3 s (2047 : Fin 2048) (1 : Fin 2))
    * Ideal.div (Ideal.tanh (u (ix3 s (2047 : Fin 2048) (0 : Fin 2)) * w (ix2 k (0 : Fin 1)) + b (ix1 k) + b' (ix1 k)))
        (τ (ix1 k))

/-- The read-out of row s at latent coordinate l: tanh of the state's product with row l of W, plus the bias. -/
def readoutAt (u : (⟨3, ![8192, 2048, 2]⟩ : Shape).Idx → EReal) (w : (⟨2, ![64, 1]⟩ : Shape).Idx → EReal)
    (b b' τ : (⟨1, ![64]⟩ : Shape).Idx → EReal) (W : (⟨2, ![64, 64]⟩ : Shape).Idx → EReal)
    (β : (⟨1, ![64]⟩ : Shape).Idx → EReal) (s : Fin 8192) (l : Fin 64) : EReal :=
  Ideal.tanh ((∑ k : Fin 64, hidden u w b b' τ s k * W (ix2 l k)) + β (ix1 l))

/-- The whole result array [8192, 64]. -/
def readout (u : (⟨3, ![8192, 2048, 2]⟩ : Shape).Idx → EReal) (w : (⟨2, ![64, 1]⟩ : Shape).Idx → EReal)
    (b b' τ : (⟨1, ![64]⟩ : Shape).Idx → EReal) (W : (⟨2, ![64, 64]⟩ : Shape).Idx → EReal)
    (β : (⟨1, ![64]⟩ : Shape).Idx → EReal) : (⟨2, ![8192, 64]⟩ : Shape).Idx → EReal :=
  fun i => readoutAt u w b b' τ W β (i 0) (i 1)

/-- The array at (s, l). -/
theorem readout_ix2 (u : (⟨3, ![8192, 2048, 2]⟩ : Shape).Idx → EReal) (w : (⟨2, ![64, 1]⟩ : Shape).Idx → EReal)
    (b b' τ : (⟨1, ![64]⟩ : Shape).Idx → EReal) (W : (⟨2, ![64, 64]⟩ : Shape).Idx → EReal)
    (β : (⟨1, ![64]⟩ : Shape).Idx → EReal) (s : Fin 8192) (l : Fin 64) :
    readout u w b b' τ W β (ix2 s l) = readoutAt u w b b' τ W β s l := rfl

end Cert.LiquidCell

end
-- ==== Proof.Blocks.lean ====
/-
  From blocks to the whole array.

  The grid has four points; point t stages rows 2048·t … 2048·t + 2047 of the drive and step-width columns and of the
  result, and every other operand whole. So element (p, q) of what point t writes back is the body's stored value at
  (p, q) of blocks whose entries are the arguments at row s = 2048·t + p: the specification's read-out at (s, q). The
  four row blocks tile the [8192, 64] result (row r lies in block r / 2048), so the array after the run is the
  specification's read-out of the arguments.
-/
import proofs.«116303_j71906342469697_1_alg».proof.Proof.Gen.KernelIdeal.Value
import proofs.«116303_j71906342469697_1_alg».proof.Proof.Payload
import proofs.«116303_j71906342469697_1_alg».proof.Proof.Glue
import proofs.«116303_j71906342469697_1_alg».proof.Proof.Spec

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.LiquidCell
open Idealize.ShloMosaic.Pipeline (Dat)

variable (m : (ℓ : Loc nD τ sig) → Buf (Elt Ideal) ℓ) (ρ : Dev nD → PrngReg)

/-- The specification's read-out of core c's arguments as launched. -/
abbrev result (c : Dev nD) : S8192x64.Idx → EReal :=
  readout (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6))
    (m ((c : Thread nD τ).loc main_arg7))

/-! ## The eight input blocks at a point, each at its literal shape -/

abbrev driveBlk (c : Dev nD) (t : Fin cfg0.N) : FVec Ideal S2048x1 .f32 := iblk m c 0 t
abbrev widthBlk (c : Dev nD) (t : Fin cfg0.N) : FVec Ideal S2048x1 .f32 := iblk m c 1 t
abbrev inwBlk (c : Dev nD) (t : Fin cfg0.N) : FVec Ideal S1x64 .f32 := iblk m c 2 t
abbrev biasBlk (c : Dev nD) (t : Fin cfg0.N) : FVec Ideal S1x64 .f32 := iblk m c 3 t
abbrev bias'Blk (c : Dev nD) (t : Fin cfg0.N) : FVec Ideal S1x64 .f32 := iblk m c 4 t
abbrev tauBlk (c : Dev nD) (t : Fin cfg0.N) : FVec Ideal S1x64 .f32 := iblk m c 5 t
abbrev outwBlk (c : Dev nD) (t : Fin cfg0.N) : FVec Ideal S64x64 .f32 := iblk m c 6 t
abbrev betaBlk (c : Dev nD) (t : Fin cfg0.N) : FVec Ideal S1x64 .f32 := iblk m c 7 t

/-! ## The printed index maps, decided over the four points -/

/-- The three row-blocked windows sit at block row t, block column 0; -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0 :=
  (by decide +kernel : ∀ t : Fin grid0.N, _)

/-- the six whole operands at block (0, 0). -/
theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## Each block's entries are the arguments' -/

/-- Row p of the drive block at point t is the sequence's last step, channel 0, at row s = 2048·t + p. -/
theorem driveBlk_apply (c : Dev nD) (t : Fin cfg0.N) (p : Fin 2048) (s : Fin 8192) (hs : s.val = t.val * 2048 + p.val) :
    driveBlk m c t (ix2 p (0 : Fin 1))
      = (m ((c : Thread nD τ).loc main_arg0) : S8192x2048x2.Idx → EReal) (ix3 s (2047 : Fin 2048) (0 : Fin 2)) := by
  refine Eq.trans ?_ (Glue.drive_apply m c s)
  obtain ⟨e0, e1, -, -, -, -⟩ := idx_rows t
  have h : (((cfg0.win 0).blk t).view.emb (ix2 p (0 : Fin 1)) : S8192x1.Idx) = ix2 s (0 : Fin 1) := by
    funext a; apply Fin.ext
    match a with
    | ⟨0, _⟩ => show win0_0.index t (0 : Fin 2) * 2048 + 1 * p.val = s.val; omega
    | ⟨1, _⟩ => show win0_0.index t (1 : Fin 2) * 1 + 1 * 0 = 0; omega
  show (V m c main_v1 : S8192x1.Idx → EReal) (((cfg0.win 0).blk t).view.emb (ix2 p (0 : Fin 1))) = _
  rw [h]

/-- Row p of the step-width block at point t is the last step's channel 1 at row s = 2048·t + p. -/
theorem widthBlk_apply (c : Dev nD) (t : Fin cfg0.N) (p : Fin 2048) (s : Fin 8192) (hs : s.val = t.val * 2048 + p.val) :
    widthBlk m c t (ix2 p (0 : Fin 1))
      = (m ((c : Thread nD τ).loc main_arg0) : S8192x2048x2.Idx → EReal) (ix3 s (2047 : Fin 2048) (1 : Fin 2)) := by
  refine Eq.trans ?_ (Glue.width_apply m c s)
  obtain ⟨-, -, e0, e1, -, -⟩ := idx_rows t
  have h : (((cfg0.win 1).blk t).view.emb (ix2 p (0 : Fin 1)) : S8192x1.Idx) = ix2 s (0 : Fin 1) := by
    funext a; apply Fin.ext
    match a with
    | ⟨0, _⟩ => show win0_1.index t (0 : Fin 2) * 2048 + 1 * p.val = s.val; omega
    | ⟨1, _⟩ => show win0_1.index t (1 : Fin 2) * 1 + 1 * 0 = 0; omega
  show (V m c main_v3 : S8192x1.Idx → EReal) (((cfg0.win 1).blk t).view.emb (ix2 p (0 : Fin 1))) = _
  rw [h]

/-- The transposed input weights, staged whole: entry (0, k) is w(k, 0). -/
theorem inwBlk_apply (c : Dev nD) (t : Fin cfg0.N) (k : Fin 64) :
    inwBlk m c t (ix2 (0 : Fin 1) k) = (m ((c : Thread nD τ).loc main_arg1) : S64x1.Idx → EReal) (ix2 k (0 : Fin 1)) := by
  refine Eq.trans ?_ (Glue.inw_apply m c k)
  obtain ⟨e0, e1, -⟩ := idx_whole t
  have h : (((cfg0.win 2).blk t).view.emb (ix2 (0 : Fin 1) k) : S1x64.Idx) = ix2 (0 : Fin 1) k := by
    funext a; apply Fin.ext
    match a with
    | ⟨0, _⟩ => show win0_2.index t (0 : Fin 2) * 1 + 1 * 0 = 0; omega
    | ⟨1, _⟩ => show win0_2.index t (1 : Fin 2) * 64 + 1 * k.val = k.val; omega
  show (V m c main_v4 : S1x64.Idx → EReal) (((cfg0.win 2).blk t).view.emb (ix2 (0 : Fin 1) k)) = _
  rw [h]

/-- The first bias row, staged whole. -/
theorem biasBlk_apply (c : Dev nD) (t : Fin cfg0.N) (k : Fin 64) :
    biasBlk m c t (ix2 (0 : Fin 1) k) = (m ((c : Thread nD τ).loc main_arg2) : S64.Idx → EReal) (ix1 k) := by
  refine Eq.trans ?_ (Glue.bias_apply m c k)
  obtain ⟨-, -, e0, e1, -⟩ := idx_whole t
  have h : (((cfg0.win 3).blk t).view.emb (ix2 (0 : Fin 1) k) : S1x64.Idx) = ix2 (0 : Fin 1) k := by
    funext a; apply Fin.ext
    match a with
    | ⟨0, _⟩ => show win0_3.index t (0 : Fin 2) * 1 + 1 * 0 = 0; omega
    | ⟨1, _⟩ => show win0_3.index t (1 : Fin 2) * 64 + 1 * k.val = k.val; omega
  show (V m c main_v6 : S1x64.Idx → EReal) (((cfg0.win 3).blk t).view.emb (ix2 (0 : Fin 1) k)) = _
  rw [h]

/-- The second bias row, staged whole. -/
theorem bias'Blk_apply (c : Dev nD) (t : Fin cfg0.N) (k : Fin 64) :
    bias'Blk m c t (ix2 (0 : Fin 1) k) = (m ((c : Thread nD τ).loc main_arg4) : S64.Idx → EReal) (ix1 k) := by
  refine Eq.trans ?_ (Glue.bias'_apply m c k)
  obtain ⟨-, -, -, -, e0, e1, -⟩ := idx_whole t
  have h : (((cfg0.win 4).blk t).view.emb (ix2 (0 : Fin 1) k) : S1x64.Idx) = ix2 (0 : Fin 1) k := by
    funext a; apply Fin.ext
    match a with
    | ⟨0, _⟩ => show win0_4.index t (0 : Fin 2) * 1 + 1 * 0 = 0; omega
    | ⟨1, _⟩ => show win0_4.index t (1 : Fin 2) * 64 + 1 * k.val = k.val; omega
  show (V m c main_v7 : S1x64.Idx → EReal) (((cfg0.win 4).blk t).view.emb (ix2 (0 : Fin 1) k)) = _
  rw [h]

/-- The row of time constants, staged whole. -/
theorem tauBlk_apply (c : Dev nD) (t : Fin cfg0.N) (k : Fin 64) :
    tauBlk m c t (ix2 (0 : Fin 1) k) = (m ((c : Thread nD τ).loc main_arg5) : S64.Idx → EReal) (ix1 k) := by
  refine Eq.trans ?_ (Glue.tau_apply m c k)
  obtain ⟨-, -, -, -, -, -, e0, e1, -⟩ := idx_whole t
  have h : (((cfg0.win 5).blk t).view.emb (ix2 (0 : Fin 1) k) : S1x64.Idx) = ix2 (0 : Fin 1) k := by
    funext a; apply Fin.ext
    match a with
    | ⟨0, _⟩ => show win0_5.index t (0 : Fin 2) * 1 + 1 * 0 = 0; omega
    | ⟨1, _⟩ => show win0_5.index t (1 : Fin 2) * 64 + 1 * k.val = k.val; omega
  show (V m c main_v8 : S1x64.Idx → EReal) (((cfg0.win 5).blk t).view.emb (ix2 (0 : Fin 1) k)) = _
  rw [h]

/-- The transposed read-out weights, staged whole: entry (k, l) is W(l, k). -/
theorem outwBlk_apply (c : Dev nD) (t : Fin cfg0.N) (k l : Fin 64) :
    outwBlk m c t (ix2 k l) = (m ((c : Thread nD τ).loc main_arg6) : S64x64.Idx → EReal) (ix2 l k) := by
  refine Eq.trans ?_ (Glue.outw_apply m c k l)
  obtain ⟨-, -, -, -, -, -, -, -, e0, e1, -⟩ := idx_whole t
  have h : (((cfg0.win 6).blk t).view.emb (ix2 k l) : S64x64.Idx) = ix2 k l := by
    funext a; apply Fin.ext
    match a with
    | ⟨0, _⟩ => show win0_6.index t (0 : Fin 2) * 64 + 1 * k.val = k.val; omega
    | ⟨1, _⟩ => show win0_6.index t (1 : Fin 2) * 64 + 1 * l.val = l.val; omega
  show (V m c main_v5 : S64x64.Idx → EReal) (((cfg0.win 6).blk t).view.emb (ix2 k l)) = _
  rw [h]

/-- The read-out bias row, staged whole. -/
theorem betaBlk_apply (c : Dev nD) (t : Fin cfg0.N) (l : Fin 64) :
    betaBlk m c t (ix2 (0 : Fin 1) l) = (m ((c : Thread nD τ).loc main_arg7) : S64.Idx → EReal) (ix1 l) := by
  refine Eq.trans ?_ (Glue.beta_apply m c l)
  obtain ⟨-, -, -, -, -, -, -, -, -, -, e0, e1⟩ := idx_whole t
  have h : (((cfg0.win 7).blk t).view.emb (ix2 (0 : Fin 1) l) : S1x64.Idx) = ix2 (0 : Fin 1) l := by
    funext a; apply Fin.ext
    match a with
    | ⟨0, _⟩ => show win0_7.index t (0 : Fin 2) * 1 + 1 * 0 = 0; omega
    | ⟨1, _⟩ => show win0_7.index t (1 : Fin 2) * 64 + 1 * l.val = l.val; omega
  show (V m c main_v9 : S1x64.Idx → EReal) (((cfg0.win 7).blk t).view.emb (ix2 (0 : Fin 1) l)) = _
  rw [h]

/-! ## What a point stores is the specification's block -/

/-- The body's stored value at (p, q) of point t's blocks is the specification's read-out at row s = 2048·t + p, column q. -/
theorem stored_apply (c : Dev nD) (t : Fin cfg0.N) (p : Fin 2048) (q : Fin 64) (s : Fin 8192) (hs : s.val = t.val * 2048 + p.val) :
    k0_pay1 (F := Ideal) (driveBlk m c t) (widthBlk m c t) (inwBlk m c t) (biasBlk m c t) (bias'Blk m c t) (tauBlk m c t)
        (outwBlk m c t) (betaBlk m c t) (ix2 p q)
      = result m c (ix2 s q) := by
  refine (Payload.pay_apply (driveBlk m c t) (widthBlk m c t) (inwBlk m c t) (biasBlk m c t) (bias'Blk m c t) (tauBlk m c t)
    (outwBlk m c t) (betaBlk m c t) p q).trans ?_
  rw [driveBlk_apply m c t p s hs, widthBlk_apply m c t p s hs, betaBlk_apply m c t q]
  refine congrArg (fun z => Ideal.tanh (z + (m ((c : Thread nD τ).loc main_arg7) : S64.Idx → EReal) (ix1 q)))
    (Finset.sum_congr rfl fun k _ => ?_)
  rw [inwBlk_apply m c t k, biasBlk_apply m c t k, bias'Blk_apply m c t k, tauBlk_apply m c t k, outwBlk_apply m c t k q]
  rfl

theorem hz : (![0, 0] : Fin 2 → Nat) = fun _ => 0 := funext fun a => by fin_cases a <;> rfl

/-- What point t writes back is block t of the specification's read-out. -/
theorem flushed_eq (c : Dev nD) (t : Fin cfg0.N) :
    (dats m 0 c).flushed 8 t = ((cfg0.win 8).blk t).view.read (Elt Ideal) (result m c) := by
  rw [Value.flushed8]
  unfold out0_8
  rw [View.canon_unit_zero hz]
  simp only [View.ld_unit_zero (S := S2048x1) hz, View.ld_unit_zero (S := S1x64) hz, View.ld_unit_zero (S := S64x64) hz]
  funext j
  obtain ⟨p, q, rfl⟩ : ∃ (p : Fin 2048) (q : Fin 64), (j : S2048x64.Idx) = ix2 p q := ⟨j 0, j 1, eq_ix2 j⟩
  have hN : cfg0.N = 4 := N_0
  have ht : t.val < 4 := hN ▸ t.isLt
  obtain ⟨-, -, -, -, e0, e1⟩ := idx_rows t
  have hemb : (((cfg0.win 8).blk t).view.emb (ix2 p q) : S8192x64.Idx)
      = ix2 (⟨t.val * 2048 + p.val, by have := p.isLt; omega⟩ : Fin 8192) q := by
    funext a; apply Fin.ext
    match a with
    | ⟨0, _⟩ => show win0_8.index t (0 : Fin 2) * 2048 + 1 * p.val = t.val * 2048 + p.val; omega
    | ⟨1, _⟩ => show win0_8.index t (1 : Fin 2) * 64 + 1 * q.val = q.val; omega
  show k0_pay1 (F := Ideal) (driveBlk m c t) (widthBlk m c t) (inwBlk m c t) (biasBlk m c t) (bias'Blk m c t) (tauBlk m c t)
      (outwBlk m c t) (betaBlk m c t) (ix2 p q) = result m c (((cfg0.win 8).blk t).view.emb (ix2 p q))
  rw [hemb]
  exact stored_apply m c t p q _ rfl

/-! ## The four row blocks tile the result -/

/-- An index of the result is in point t's block iff each coordinate is in the block's range on its axis. -/
theorem mem_blk (t : Fin cfg0.N) (i : S8192x64.Idx) :
    i ∈ ((cfg0.win 8).blk t).view.set ↔ ∀ a : Fin 2, win0_8.index t a * S2048x64.size a ≤ (i a).val
      ∧ (i a).val < win0_8.index t a * S2048x64.size a + S2048x64.size a := by
  show i ∈ ((View.whole main_v10).slice (win0_8.rect t)).set ↔ _
  rw [View.set_slice_whole, Rect.mem_set_unit]
  exact Iff.rfl

/-- Row r lies in the block of point r / 2048, which writes back. -/
theorem cover (i : S8192x64.Idx) :
    ∃ t : Fin cfg0.N, (cfg0.win 8).flush t = true ∧ i ∈ ((cfg0.win 8).blk t).view.set := by
  have hi0 : (i 0).val < 8192 := (i 0).isLt
  have hi1 : (i 1).val < 64 := (i 1).isLt
  have hN : cfg0.N = 4 := N_0
  have hlt : (i 0).val / 2048 < cfg0.N := by rw [hN]; omega
  obtain ⟨-, -, -, -, e0, e1⟩ := idx_rows ⟨(i 0).val / 2048, hlt⟩
  refine ⟨⟨(i 0).val / 2048, hlt⟩, flush0_8 _, ?_⟩
  rw [mem_blk]
  intro a
  match a with
  | ⟨0, _⟩ =>
    show win0_8.index ⟨(i 0).val / 2048, hlt⟩ (0 : Fin 2) * 2048 ≤ (i 0).val
      ∧ (i 0).val < win0_8.index ⟨(i 0).val / 2048, hlt⟩ (0 : Fin 2) * 2048 + 2048
    have e0' : win0_8.index ⟨(i 0).val / 2048, hlt⟩ (0 : Fin 2) = (i 0).val / 2048 := e0
    omega
  | ⟨1, _⟩ =>
    show win0_8.index ⟨(i 0).val / 2048, hlt⟩ (1 : Fin 2) * 64 ≤ (i 1).val
      ∧ (i 1).val < win0_8.index ⟨(i 0).val / 2048, hlt⟩ (1 : Fin 2) * 64 + 64
    omega

/-- The result array after the run is the specification's read-out of the arguments. -/
theorem final (c : Dev nD) : (dats m 0 c).arrAt 8 cfg0.N = result m c :=
  (dats m 0 c).arrAt_eq_of_cover 8 (result m c) (fun t _ => flushed_eq m c t) cover

/-! ## The run -/

/-- Every weakly fair execution of the program ends with the result array at the specification's read-out of the
    arguments, and the arguments as launched. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Blocks

end
-- ==== Proof.RefValue.lean ====
/-
  The reference's result is the specification.

  The reference slices the last step off the sequence, forms x · wᵀ as a product with one contraction index, adds the two
  biases, takes tanh, divides by τ, scales by δ, multiplies by the transpose of W and adds β, then tanh. Read one
  operation at a time at an index, every layout operation is a re-indexing, each product a sum over its contraction
  index, and a sum over one index is its one term: at (s, l) the result is the specification's read-out.
-/
import proofs.«116303_j71906342469697_1_alg».proof.Proof.Gen.ReferenceIdeal.Read
import proofs.«116303_j71906342469697_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.LiquidCell

/-! ## Where the composed layout operations send an index -/

/-- The step-width column read at (s, k) is the sequence at (s, 2047, 1). -/
theorem idx_delta (s : Fin 8192) (k : Fin 64) :
    idx_main_v2 (idx_main_v3 (idx_main_v16 (idx_main_v17 (ix2 s k)))) = ix3 s (2047 : Fin 2048) (1 : Fin 2) :=
  funext fun a => Fin.ext (by
    match a with
    | ⟨0, _⟩ => exact Nat.div_one _
    | ⟨1, _⟩ => rfl
    | ⟨2, _⟩ => rfl)

/-- The drive column read at (s, 0) is the sequence at (s, 2047, 0). -/
theorem idx_drive (s : Fin 8192) (k : Fin 64) :
    idx_main_v0 (idx_main_v1 (lidx_main_v5 (ix2 s k) (0 : Fin 1))) = ix3 s (2047 : Fin 2048) (0 : Fin 2) :=
  funext fun a => Fin.ext (by
    match a with
    | ⟨0, _⟩ => show (s.val * 1 + 0) / 1 = s.val; omega
    | ⟨1, _⟩ => rfl
    | ⟨2, _⟩ => rfl)

/-- The transposed input weights read at (0, k) are the weights at (k, 0). -/
theorem idx_inw (s : Fin 8192) (k : Fin 64) : idx_main_v4 (ridx_main_v5 (ix2 s k) (0 : Fin 1)) = ix2 k (0 : Fin 1) :=
  funext fun a => Fin.ext (by
    match a with
    | ⟨0, _⟩ => rfl
    | ⟨1, _⟩ => rfl)

/-- A row vector broadcast to [1, 64] and then to [8192, 64], read at (s, k), is the vector at k: the first bias, -/
theorem idx_bias (s : Fin 8192) (k : Fin 64) : idx_main_v6 (idx_main_v7 (ix2 s k)) = ix1 k :=
  funext fun a => Fin.ext (by
    match a with
    | ⟨0, _⟩ => rfl)

/-- the second bias, -/
theorem idx_bias' (s : Fin 8192) (k : Fin 64) : idx_main_v9 (idx_main_v10 (ix2 s k)) = ix1 k :=
  funext fun a => Fin.ext (by
    match a with
    | ⟨0, _⟩ => rfl)

/-- the time constants, -/
theorem idx_tau (s : Fin 8192) (k : Fin 64) : idx_main_v13 (idx_main_v14 (ix2 s k)) = ix1 k :=
  funext fun a => Fin.ext (by
    match a with
    | ⟨0, _⟩ => rfl)

/-- and the read-out bias. -/
theorem idx_beta (s : Fin 8192) (l : Fin 64) : idx_main_v21 (idx_main_v22 (ix2 s l)) = ix1 l :=
  funext fun a => Fin.ext (by
    match a with
    | ⟨0, _⟩ => rfl)

/-- The state, read at the left index of the read-out product, is the state at (s, k). -/
theorem idx_state (s : Fin 8192) (l k : Fin 64) : lidx_main_v20 (ix2 s l) k = ix2 s k :=
  funext fun a => Fin.ext (by
    match a with
    | ⟨0, _⟩ => rfl
    | ⟨1, _⟩ => rfl)

/-- The transposed read-out weights, read at the right index of the product, are W at (l, k). -/
theorem idx_outw (s : Fin 8192) (l k : Fin 64) : idx_main_v19 (ridx_main_v20 (ix2 s l) k) = ix2 l k :=
  funext fun a => Fin.ext (by
    match a with
    | ⟨0, _⟩ => rfl
    | ⟨1, _⟩ => rfl)

/-! ## The stages -/

/-- The reference's state array at (s, k) is the specification's. -/
theorem state_eq (x0 : (⟨S8192x2048x2, .f32⟩ : BufTy).Contents (Elt Ideal)) (x1 : (⟨S64x1, .f32⟩ : BufTy).Contents (Elt Ideal))
    (x2 x4 x5 : (⟨S64, .f32⟩ : BufTy).Contents (Elt Ideal)) (s : Fin 8192) (k : Fin 64) :
    val_main_v18 (F := Ideal) x0 x1 x2 x4 x5 (ix2 s k) = hidden x0 x1 x2 x4 x5 s k := by
  rw [val_main_v18_apply, val_main_v17_apply, val_main_v16_apply, val_main_v3_apply, val_main_v2_apply,
    val_main_v15_apply, val_main_v12_apply, val_main_v14_apply, val_main_v13_apply,
    val_main_v11_apply, val_main_v8_apply, val_main_v10_apply, val_main_v9_apply,
    val_main_v5_apply, val_main_v7_apply, val_main_v6_apply,
    Fin.sum_univ_one, val_main_v1_apply, val_main_v0_apply, val_main_v4_apply,
    idx_delta, idx_drive, idx_inw, idx_bias, idx_bias', idx_tau]
  rfl

/-- The reference's result is the specification's read-out of its arguments. -/
theorem result_eq (x0 : (⟨S8192x2048x2, .f32⟩ : BufTy).Contents (Elt Ideal)) (x1 : (⟨S64x1, .f32⟩ : BufTy).Contents (Elt Ideal))
    (x2 x4 x5 : (⟨S64, .f32⟩ : BufTy).Contents (Elt Ideal)) (x6 : (⟨S64x64, .f32⟩ : BufTy).Contents (Elt Ideal))
    (x7 : (⟨S64, .f32⟩ : BufTy).Contents (Elt Ideal)) :
    val_main_v24 (F := Ideal) x0 x1 x2 x4 x5 x6 x7 = readout x0 x1 x2 x4 x5 x6 x7 := by
  funext i
  obtain ⟨s, l, rfl⟩ : ∃ (s : Fin 8192) (l : Fin 64), i = ix2 s l := ⟨i 0, i 1, eq_ix2 i⟩
  rw [readout_ix2, val_main_v24_apply, val_main_v23_apply, val_main_v20_apply, val_main_v22_apply, val_main_v21_apply, idx_beta]
  unfold readoutAt
  show Ideal.tanh ((∑ k : Fin 64, val_main_v18 (F := Ideal) x0 x1 x2 x4 x5 (lidx_main_v20 (ix2 s l) k)
      * val_main_v19 (F := Ideal) x6 (ridx_main_v20 (ix2 s l) k)) + x7 (ix1 l)) = _
  refine congrArg (fun z => Ideal.tanh (z + x7 (ix1 l))) (Finset.sum_congr rfl fun k _ => ?_)
  rw [idx_state, state_eq, val_main_v19_apply, idx_outw]

end Cert.ReferenceIdeal.RefValue

end
-- ==== Proof.lean ====
/-
  The kernel computes, for each of 8192 rows, one step of a leaky state from zero and its read-out,

      y(s, l) = tanh( Σ_{k < 64} δ(s) · ( tanh( x(s) · w(k, 0) + b(k) + b'(k) ) / τ(k) ) · W(l, k) + β(l) ),

  x(s) and δ(s) the two channels of the sequence's last step; the reference computes the same expression with the same
  operations in the same order on whole arrays. At the ideal values the kernel's two products into zero accumulators and
  the reference's two contractions are the same finite sums, a change of float format is the identity, and tanh and the
  quotient are one function on each side, so no algebraic law is needed and the inputs' finiteness is never used: the
  two results are equal term by term (Spec: the common function; Payload, Glue, Blocks: the kernel's result array is it;
  RefValue: the reference's is it). The idealization rewrote nothing, so it preserves the kernel trivially, and each
  program's run leaves its arguments as launched.
-/
import proofs.«116303_j71906342469697_1_alg».proof.Defs
import proofs.«116303_j71906342469697_1_alg».proof.Proof.Gen.Kernel
import proofs.«116303_j71906342469697_1_alg».proof.Proof.Gen.Kernel.Skeleton
import proofs.«116303_j71906342469697_1_alg».proof.Proof.Gen.Kernel.Launch
import proofs.«116303_j71906342469697_1_alg».proof.Proof.Gen.Kernel.Points
import proofs.«116303_j71906342469697_1_alg».proof.Proof.Gen.Kernel.Frame
import proofs.«116303_j71906342469697_1_alg».proof.Proof.Gen.KernelIdeal
import proofs.«116303_j71906342469697_1_alg».proof.Proof.Gen.KernelIdeal.Skeleton
import proofs.«116303_j71906342469697_1_alg».proof.Proof.Gen.KernelIdeal.Launch
import proofs.«116303_j71906342469697_1_alg».proof.Proof.Gen.KernelIdeal.Points
import proofs.«116303_j71906342469697_1_alg».proof.Proof.Gen.KernelIdeal.Frame
import proofs.«116303_j71906342469697_1_alg».proof.Proof.Gen.ReferenceIdeal
import proofs.«116303_j71906342469697_1_alg».proof.Proof.Gen.Pre_finite_inputs
import proofs.«116303_j71906342469697_1_alg».proof.Proof.Gen.KernelIdeal.Value
import proofs.«116303_j71906342469697_1_alg».proof.Proof.Gen.ReferenceIdeal.Run
import proofs.«116303_j71906342469697_1_alg».proof.Proof.Gen.ReferenceIdeal.Read
import proofs.«116303_j71906342469697_1_alg».proof.Proof.Blocks
import proofs.«116303_j71906342469697_1_alg».proof.Proof.RefValue
import Idealize.ShloMosaic.Adequacy
import Idealize.ShloMosaic.Init

noncomputable section

namespace Cert.Proof

open Idealize.ShloMosaic Idealize.SL.Sem

/-- From memories that agree on the arguments both programs end with the result array at the common function of those
    arguments: the kernel's by its blocks, the reference's one operation at a time. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, -, h4, h5, h6, h7⟩ := hagree c
  rw [Cert.ReferenceIdeal.Read.val_main_v24_eq, Cert.ReferenceIdeal.RefValue.result_eq, h0, h1, h2, h4, h5, h6, h7]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
